-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) (main_arg3 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S8192x4096, .f32⟩
  | .hbm, ⟨5, _⟩ => ⟨S4096x4096, .i32⟩
  | .hbm, ⟨6, _⟩ => ⟨S8192x4096, .f32⟩
  | .hbm, ⟨7, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each kind of grid point leaves behind, as the body's stored blocks.

  The body runs in one of three ways, by the position k of the point along the grid's last axis.
    * k = 0: the accumulator is first set to the reset block, then overwritten by the step block computed from the
      point's input blocks and from the reset block just stored.
    * 0 < k < 7: the accumulator, holding what the point before left, is overwritten by the step block computed from the
      point's input blocks and from those contents.
    * k = 7: the same step; then the output block is written with the last block, computed from the accumulator just
      stored and from the bias stretch.
  Each store covers its whole buffer, so what a buffer ends holding is the last block stored into it, and a load that
  follows a store of the whole buffer reads that store's block.
-/
import proofs.«118036_j27479200760108_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- At a first point the accumulator ends at the step block over the reset block. -/
theorem acc_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x512 .f32) (x1 : Vec F S1024x512 .f32) (x2 : Vec F S1024x512 .i32) (x3 : Vec F S1024 .f32) :
    sout0_A_0 c i a3 h3 a4 h4 a5 h5 a6 h6 a7 h7 a8 h8 hc0 hc1 x0 x1 x2 x3 = k0_pay2 x0 x2 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread,
    View.ld_unit_zero (S := S1024x512) hz, View.ld_unit_zero (S := S1024x1024) hz, View.ld_unit_zero (S := S1024) hz1,
    View.readCov_unit_zero (S := S1024x1024) _ hz]

/-- At a middle point the accumulator ends at the step block over what it held. -/
theorem acc_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x512 .f32) (x1 : Vec F S1024x512 .f32) (x2 : Vec F S1024x512 .i32) (x3 : Vec F S1024 .f32) (xs0 : Vec F S1024x1024 .f32) :
    sout0_B_0 c i a3 h3 a4 h4 a5 h5 a6 h6 a7 h7 a8 h8 hc0 hc1 x0 x1 x2 x3 xs0 = k0_pay2 x0 x2 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h8.read_unread,
    View.ld_unit_zero (S := S1024x512) hz, View.ld_unit_zero (S := S1024x1024) hz, View.ld_unit_zero (S := S1024) hz1,
    View.readCov_unit_zero (S := S1024x1024) _ hz]

/-- At a last point the accumulator ends at the step block over what it held, -/
theorem acc_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1024 .f32) (xs0 : Vec F S1024x1024 .f32) :
    sout0_C_0 c i a3 h3 a4 h4 a5 h5 a6 h6 a7 h7 a8 h8 hc0 hc1 x0 x1 x2 x3 xs0 = k0_pay2 x0 x2 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x512) hz, View.ld_unit_zero (S := S1024x1024) hz, View.ld_unit_zero (S := S1024) hz1,
    View.readCov_unit_zero (S := S1024x1024) _ hz]

/-- and the output block at the last block over that and the bias stretch. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1024 .f32) (xs0 : Vec F S1024x1024 .f32) :
    out0_C_4 c i a3 h3 a4 h4 a5 h5 a6 h6 a7 h7 a8 h8 hc0 hc1 x0 x1 x2 x3 xs0 = k0_pay3 (k0_pay2 x0 x2 x1 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x512) hz, View.ld_unit_zero (S := S1024x1024) hz, View.ld_unit_zero (S := S1024) hz1,
    View.readCov_unit_zero (S := S1024x1024) _ hz]

end Cert.KernelIdeal.Pieces

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.Spec.lean ====
/-
  A linear layer whose weight matrix is thinned by a mask of bits.

  For an input x of shape [4, 2048, 4096], a weight matrix w of shape [4096, 4096] (one row per output feature), a bias
  vector of length 4096 and one mask bit per weight entry, the layer's output at (b, s, o) is

      (sum over k < 4096 of x(b, s, k) · kept(w(o, k), mask(o, k))) + bias(o),

  where a weight entry is kept when its bit is set and replaced by zero when it is clear. Everything is read over the
  extended reals, where addition is commutative and associative and where 1 and 0 are the multiplicative unit and the
  absorbing element for EVERY extended real, the infinities included: no entry has to be finite for what follows.

  Two spellings of "kept" meet here. Multiplying the entry by the bit read as a number gives w · 1 = w or w · 0 = 0
  (`mul_bit`). Widening the bit to a 32-bit word, testing the word against zero and selecting between the entry and zero
  gives the same (`select_word`).

  A row of 4096 columns is eight stretches of 512, so the long sum is the sum over the stretches of the short sums
  (`row_sum`), and a sum over the first eight naturals is that sum over `Fin 8`.
-/
import Idealize.ShloMosaic.Lib.ValueIdx
import Idealize.ShloMosaic.PureOps.Ideal.Laws
import proofs.«118036_j27479200760108_1_alg».proof.Proof.LibProductNT

noncomputable section

namespace MaskedLinear

open Idealize.ShloMosaic Idealize.ShloMosaic.ValueIdx

/-- The input's shape, the weight's (and the mask's) and the bias's. -/
abbrev SX : Shape := ⟨3, ![4, 2048, 4096]⟩
abbrev SW : Shape := ⟨2, ![4096, 4096]⟩
abbrev SB : Shape := ⟨1, ![4096]⟩

/-- A weight entry where its mask bit is set, zero where it is clear. -/
def kept (w : EReal) (b : BitVec 1) : EReal := if b = 1#1 then w else 0

/-- Column `512·j + c` of a row of 4096: column `c` of stretch `j`. -/
abbrev col (j : Fin 8) (c : Fin 512) : Fin 4096 := ⟨j.val * 512 + c.val, by have := j.isLt; have := c.isLt; omega⟩

/-- The masked product of input row (b, s) with weight row o. -/
def dot (x : SX.Idx → EReal) (w : SW.Idx → EReal) (mk : SW.Idx → BitVec 1) (b : Fin 4) (s : Fin 2048) (o : Fin 4096) : EReal :=
  ∑ k : Fin 4096, x (ix3 b s k) * kept (w (ix2 o k)) (mk (ix2 o k))

/-- The layer. -/
def G (x : SX.Idx → EReal) (w : SW.Idx → EReal) (bias : SB.Idx → EReal) (mk : SW.Idx → BitVec 1) : SX.Idx → EReal :=
  fun i => dot x w mk (i 0) (i 1) (i 2) + bias (ix1 (i 2))

/-- A bit is clear or set. -/
theorem bit_cases (b : BitVec 1) : b = 0#1 ∨ b = 1#1 := by
  revert b; decide

/-- Multiplying by the bit read as a number keeps the entry or zeroes it. -/
theorem mul_bit (w : EReal) (b : BitVec 1) : w * (((b.toNat : ℕ) : ℝ) : EReal) = kept w b := by
  rcases bit_cases b with rfl | rfl
  · simp [kept]
  · simp [kept]

/-- Selecting on "the widened bit is not the zero word" keeps the entry or zeroes it. -/
theorem select_word (w : EReal) (b : BitVec 1) :
    Scalar.select (IntOp.cmpi .ne (b.setWidth 32) 0#32) w 0 = kept w b := by
  rcases bit_cases b with rfl | rfl
  · rfl
  · rfl

/-- The long sum over a row is the sum over its eight stretches of the sums over each stretch. -/
theorem row_sum (f : Fin 4096 → EReal) : ∑ k : Fin 4096, f k = ∑ j : Fin 8, ∑ c : Fin 512, f (col j c) :=
  ProductNT.sum_stretches 8 512 f

/-- A sum over the naturals below eight is the sum over `Fin 8`. -/
theorem range_sum (g : ℕ → EReal) : ∑ j ∈ Finset.range 8, g j = ∑ j : Fin 8, g j.val :=
  (Fin.sum_univ_eq_sum_range g 8).symm

end MaskedLinear

end
-- ==== Proof.Entries.lean ====
/-
  What the kernel body's three stores hold, entry by entry, over the extended reals.

  The body works on a 1024×512 block of the input rows, a 1024×512 block of weight rows with the same-shaped block of
  mask words, a 1024-long stretch of the bias, and a 1024×1024 accumulator.
    * The reset stores zero everywhere.
    * The step stores, at (p, q), the accumulator's entry plus the product of input row p with the THINNED weight row q:
      the sum over the block's 512 columns c of x(p, c) times (w(q, c) if the mask word at (q, c) is not the zero word,
      else zero). Narrowing the factors to a shorter float format changes nothing at the ideal values, and the matrix
      unit's product into a zero block is the plain sum.
    * The last store holds, at (p, q), the accumulator's entry plus the bias at q: the bias is laid as one row and
      repeated down the 1024 rows.
-/
import proofs.«118036_j27479200760108_1_alg».proof.Proof.Gen.KernelIdeal.Skeleton
import proofs.«118036_j27479200760108_1_alg».proof.Proof.Spec
import Idealize.ShloMosaic.Lib.ValueLayout
import Idealize.ShloMosaic.Lib.Pipeline.Value

noncomputable section

namespace Cert.KernelIdeal.Entries

open Cert.KernelIdeal Cert.KernelIdeal.Gen Idealize.ShloMosaic Idealize.ShloMosaic.ValueIdx

/-- The reset block is zero at every entry. -/
theorem reset_apply (p q : Fin 1024) : k0_pay1 (F := Ideal) (ix2 p q) = 0 := by
  unfold k0_pay1
  rw [shapeCast_self]
  exact Ideal.ofBits_zero_f32

/-- The step block at (p, q): the accumulator's entry plus the thinned row product over the block's 512 columns. -/
theorem step_apply (x : Vec Ideal S1024x512 .f32) (mk : Vec Ideal S1024x512 .i32) (w : Vec Ideal S1024x512 .f32)
    (acc : Vec Ideal S1024x1024 .f32) (p q : Fin 1024) :
    k0_pay2 (F := Ideal) x mk w acc (ix2 p q)
      = acc (ix2 p q) + ∑ c : Fin 512, x (ix2 p c) * Scalar.select (IntOp.cmpi .ne (mk (ix2 q c)) 0#32) (w (ix2 q c)) 0 := by
  unfold k0_pay2
  simp only [shapeCast_self]
  rw [addf_apply]
  congr 1
  refine (ProductNT.matmul_zero_apply _ none _ _ p q).trans ?_
  unfold ProductNT.entry
  refine Finset.sum_congr rfl fun c _ => ?_
  show x (ix2 p c) * Scalar.select (IntOp.cmpi .ne (mk (ix2 q c)) 0#32) (w (ix2 q c)) (Ideal.ofBits .f32 0x00000000#32) = _
  rw [Ideal.ofBits_zero_f32]

/-- The last block at (p, q): the accumulator's entry plus the bias at q. -/
theorem bias_apply (acc : Vec Ideal S1024x1024 .f32) (b : Vec Ideal S1024 .f32) (p q : Fin 1024) :
    k0_pay3 (F := Ideal) acc b (ix2 p q) = acc (ix2 p q) + b (ix1 q) := by
  unfold k0_pay3
  show acc (ix2 p q) + broadcastTo S1024x1024 (shapeCast S1x1024 b _) _ (ix2 p q) = _
  rw [broadcastTo_1b_ab_apply, shapeCast_a_1a_apply]

end Cert.KernelIdeal.Entries

end
-- ==== Proof.Blocks.lean ====
/-
  Where the blocks the body works on sit in the arrays, and what the arrays hold when the kernel starts.

  The grid has 8 × 4 × 8 points, numbered t = 32·a + 8·b + k with the last axis fastest. At point t
    * the input block is rows 1024·a … of the flattened input and columns 512·k …;
    * the weight block and the mask block are rows 1024·b … and columns 512·k …;
    * the bias stretch starts at 1024·b;
    * the output block is rows 1024·a … and columns 1024·b ….
  Here a = t / 32, b = (t / 8) mod 4, k = t mod 8: decided once over the 256 points.

  Before the kernel the host flattens the input [4, 2048, 4096] to [8192, 4096] (row 2048·b + s is (b, s)) and widens
  each mask bit to a 32-bit word; the weight and the bias arrive as they are.
-/
import proofs.«118036_j27479200760108_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of every window at every point. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 1) = t.val / 8 % 4
    ∧ win0_4.index t (0 : Fin 2) = t.val / 32 ∧ win0_4.index t (1 : Fin 2) = t.val / 8 % 4 :=
  (by decide +kernel : ∀ t : Fin grid0.N, _)

/-! ## A block read off any array -/

/-- The input window's block at (p, k) is the array at row 1024·(t / 32) + p, column 512·(t mod 8) + k. -/
theorem read_x (t : Fin cfg0.N) (A : S8192x4096.Idx → F .f32) (p : Fin 1024) (k : Fin 512) (r : Fin 8192) (j : Fin 4096)
    (hr : r.val = t.val / 32 * 1024 + p.val) (hj : j.val = t.val % 8 * 512 + k.val) :
    ((cfg0.win 0).blk t).view.read (Elt F) A (ix2 p k) = A (ix2 r j) := by
  obtain ⟨e0, e1, -⟩ := idx_facts t
  rw [View.read_apply]
  show A _ = A _
  refine congrArg A (funext fun a => Fin.ext ?_)
  match a with
  | ⟨0, _⟩ => show win0_0.index t (0 : Fin 2) * 1024 + 1 * p.val = r.val; omega
  | ⟨1, _⟩ => show win0_0.index t (1 : Fin 2) * 512 + 1 * k.val = j.val; omega

/-- The weight window's block at (q, k) is the array at row 1024·((t / 8) mod 4) + q, column 512·(t mod 8) + k. -/
theorem read_w (t : Fin cfg0.N) (A : S4096x4096.Idx → F .f32) (q : Fin 1024) (k : Fin 512) (o : Fin 4096) (j : Fin 4096)
    (ho : o.val = t.val / 8 % 4 * 1024 + q.val) (hj : j.val = t.val % 8 * 512 + k.val) :
    ((cfg0.win 1).blk t).view.read (Elt F) A (ix2 q k) = A (ix2 o j) := by
  obtain ⟨-, -, e0, e1, -⟩ := idx_facts t
  rw [View.read_apply]
  show A _ = A _
  refine congrArg A (funext fun a => Fin.ext ?_)
  match a with
  | ⟨0, _⟩ => show win0_1.index t (0 : Fin 2) * 1024 + 1 * q.val = o.val; omega
  | ⟨1, _⟩ => show win0_1.index t (1 : Fin 2) * 512 + 1 * k.val = j.val; omega

/-- The mask window's block sits where the weight window's does. -/
theorem read_m (t : Fin cfg0.N) (A : S4096x4096.Idx → BitVec 32) (q : Fin 1024) (k : Fin 512) (o : Fin 4096) (j : Fin 4096)
    (ho : o.val = t.val / 8 % 4 * 1024 + q.val) (hj : j.val = t.val % 8 * 512 + k.val) :
    ((cfg0.win 2).blk t).view.read (Elt F) A (ix2 q k) = A (ix2 o j) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1024 + 1 * q.val = o.val; omega
  | ⟨1, _⟩ => show win0_2.index t (1 : Fin 2) * 512 + 1 * k.val = j.val; omega

/-- The bias window's stretch at q is the array at 1024·((t / 8) mod 4) + q. -/
theorem read_b (t : Fin cfg0.N) (A : S4096.Idx → F .f32) (q : Fin 1024) (o : Fin 4096)
    (ho : o.val = t.val / 8 % 4 * 1024 + q.val) :
    ((cfg0.win 3).blk t).view.read (Elt F) A (ix1 q) = A (ix1 o) := by
  obtain ⟨-, -, -, -, -, -, e0, -⟩ := idx_facts t
  rw [View.read_apply]
  show A _ = A _
  refine congrArg A (funext fun a => Fin.ext ?_)
  match a with
  | ⟨0, _⟩ => show win0_3.index t (0 : Fin 1) * 1024 + 1 * q.val = o.val; omega

/-- The output window's block at (p, q) is the array at row 1024·(t / 32) + p, column 1024·((t / 8) mod 4) + q. -/
theorem read_o (t : Fin cfg0.N) (A : S8192x4096.Idx → F .f32) (p q : Fin 1024) (r : Fin 8192) (o : Fin 4096)
    (hr : r.val = t.val / 32 * 1024 + p.val) (ho : o.val = t.val / 8 % 4 * 1024 + q.val) :
    ((cfg0.win 4).blk t).view.read (Elt F) A (ix2 p q) = A (ix2 r o) := by
  obtain ⟨-, -, -, -, -, -, -, e0, e1⟩ := idx_facts t
  rw [View.read_apply]
  show A _ = A _
  refine congrArg A (funext fun a => Fin.ext ?_)
  match a with
  | ⟨0, _⟩ => show win0_4.index t (0 : Fin 2) * 1024 + 1 * p.val = r.val; omega
  | ⟨1, _⟩ => show win0_4.index t (1 : Fin 2) * 1024 + 1 * q.val = o.val; omega

/-! ## The arrays as the kernel finds them, and the blocks of a point, at their literal types -/

abbrev xarr (c : Dev nD) : Vec F S8192x4096 .f32 := V m c (Pipeline.arrRef spec0 0)
abbrev warr (c : Dev nD) : Vec F S4096x4096 .f32 := V m c (Pipeline.arrRef spec0 1)
abbrev marr (c : Dev nD) : Vec F S4096x4096 .i32 := V m c (Pipeline.arrRef spec0 2)
abbrev barr (c : Dev nD) : Vec F S4096 .f32 := V m c (Pipeline.arrRef spec0 3)

abbrev xblk (c : Dev nD) (t : Fin cfg0.N) : Vec F S1024x512 .f32 := iblk m c 0 t
abbrev wblk (c : Dev nD) (t : Fin cfg0.N) : Vec F S1024x512 .f32 := iblk m c 1 t
abbrev mblk (c : Dev nD) (t : Fin cfg0.N) : Vec F S1024x512 .i32 := iblk m c 2 t
abbrev bblk (c : Dev nD) (t : Fin cfg0.N) : Vec F S1024 .f32 := iblk m c 3 t

theorem xblk_apply (c : Dev nD) (t : Fin cfg0.N) (p : Fin 1024) (k : Fin 512) (r : Fin 8192) (j : Fin 4096)
    (hr : r.val = t.val / 32 * 1024 + p.val) (hj : j.val = t.val % 8 * 512 + k.val) :
    xblk m c t (ix2 p k) = xarr m c (ix2 r j) :=
  read_x t (xarr m c) p k r j hr hj

theorem wblk_apply (c : Dev nD) (t : Fin cfg0.N) (q : Fin 1024) (k : Fin 512) (o : Fin 4096) (j : Fin 4096)
    (ho : o.val = t.val / 8 % 4 * 1024 + q.val) (hj : j.val = t.val % 8 * 512 + k.val) :
    wblk m c t (ix2 q k) = warr m c (ix2 o j) :=
  read_w t (warr m c) q k o j ho hj

theorem mblk_apply (c : Dev nD) (t : Fin cfg0.N) (q : Fin 1024) (k : Fin 512) (o : Fin 4096) (j : Fin 4096)
    (ho : o.val = t.val / 8 % 4 * 1024 + q.val) (hj : j.val = t.val % 8 * 512 + k.val) :
    mblk m c t (ix2 q k) = marr m c (ix2 o j) :=
  read_m (F := F) t (marr m c) q k o j ho hj

theorem bblk_apply (c : Dev nD) (t : Fin cfg0.N) (q : Fin 1024) (o : Fin 4096)
    (ho : o.val = t.val / 8 % 4 * 1024 + q.val) :
    bblk m c t (ix1 q) = barr m c (ix1 o) :=
  read_b t (barr m c) q o ho

/-! ## What the host leaves before the kernel -/

/-- The kernel finds the input flattened, -/
theorem xarr_eq (c : Dev nD) :
    xarr m c = shapeCast S8192x4096 (m ((c : Thread nD τ).loc main_arg0)) shapeCasts_S4x2048x4096_S8192x4096 := by
  show V m c main_v0 = _
  dsimp only [V, V0]
  simp only [hostOps0, hostOps0_1, List.flatten_cons, List.flatten_nil, List.append_nil, List.cons_append, List.nil_append]
  after_results
  rfl

/-- the mask widened to words, -/
theorem marr_eq (c : Dev nD) :
    marr m c = extui 32 (m ((c : Thread nD τ).loc main_arg3)) natLt_1_32 := by
  show V m c main_call0_v0 = _
  dsimp only [V, V0]
  simp only [hostOps0, hostOps0_1, List.flatten_cons, List.flatten_nil, List.append_nil, List.cons_append, List.nil_append]
  after_results
  rfl

/-- and the weight and the bias as they were passed. -/
theorem warr_eq (c : Dev nD) : warr m c = m ((c : Thread nD τ).loc main_arg1) := V_main_arg1 m c
theorem barr_eq (c : Dev nD) : barr m c = m ((c : Thread nD τ).loc main_arg2) := V_main_arg2 m c

/-- Row 2048·b + s of the flattened input is row (b, s) of the input. -/
theorem flat_apply {α : Type} (x : S4x2048x4096.Idx → α) (b : Fin 4) (s : Fin 2048) (k : Fin 4096) (r : Fin 8192)
    (hr : r.val = b.val * 2048 + s.val) :
    shapeCast S8192x4096 x shapeCasts_S4x2048x4096_S8192x4096 (ix2 r k) = x (ix3 b s k) :=
  shapeCast_apply x _ (ix2 r k) (ix3 b s k) (by
    rw [Shape.rowMajor_val_three, Shape.rowMajor_val_two]
    show (b.val * 2048 + s.val) * 4096 + k.val = r.val * 4096 + k.val
    rw [hr])

end Cert.KernelIdeal.Blocks

end
-- ==== Proof.Accum.lean ====
/-
  What the accumulator and the output block hold after each grid point, over the extended reals.

  Fix a row r of the flattened input and a weight row o. "Stretch j" of their thinned product is the sum over the 512
  columns 512·j … 512·j + 511 of x(r, ·) times the weight entry where its mask word is not zero (zero elsewhere).

  Points run with the last grid axis fastest, so the eight points t = 8·g … 8·g + 7 share their input rows and weight
  rows and walk through the eight stretches in order. The first of them stores zero and then adds stretch 0; each later
  one adds its own stretch to what the point before left. By induction on the point, after point t the accumulator's
  entry (p, q) is the sum of stretches 0 … t mod 8 for the rows r = 1024·(t / 32) + p and o = 1024·((t / 8) mod 4) + q;
  zero is the additive unit for every extended real, so the initial zero leaves no trace. The eighth point also writes
  the output block: all eight stretches, plus the bias at o.
-/
import proofs.«118036_j27479200760108_1_alg».proof.Proof.Pieces
import proofs.«118036_j27479200760108_1_alg».proof.Proof.Entries
import proofs.«118036_j27479200760108_1_alg».proof.Proof.Blocks

noncomputable section

namespace Cert.KernelIdeal.Accum

open Cert.KernelIdeal Cert.KernelIdeal.Gen Cert.KernelIdeal.Blocks Idealize.ShloMosaic Idealize.ShloMosaic.TcCoe Idealize.SL.Sem
open Idealize.ShloMosaic.ValueIdx

variable (m : (ℓ : Loc nD τ sig) → Buf (Elt Ideal) ℓ)

/-- Column `512·j + k` of a row of 4096 (reduced mod 4096, so that it is a column for every natural `j`). -/
abbrev colN (j : ℕ) (k : Fin 512) : Fin 4096 := ⟨(j * 512 + k.val) % 4096, Nat.mod_lt _ (by decide)⟩

/-- Stretch `j` of the thinned product of flattened-input row `r` with weight row `o`. -/
def stretch (c : Dev nD) (r : Fin 8192) (o : Fin 4096) (j : ℕ) : EReal :=
  ∑ k : Fin 512, xarr m c (ix2 r (colN j k))
    * Scalar.select (IntOp.cmpi .ne (marr m c (ix2 o (colN j k))) 0#32) (warr m c (ix2 o (colN j k))) 0

/-- The row product the step adds at point `t` is stretch `t mod 8` of the point's rows. -/
theorem step_sum (c : Dev nD) (t : Fin cfg0.N) (p q : Fin 1024) (r : Fin 8192) (o : Fin 4096)
    (hr : r.val = t.val / 32 * 1024 + p.val) (ho : o.val = t.val / 8 % 4 * 1024 + q.val) :
    ∑ k : Fin 512, xblk m c t (ix2 p k) * Scalar.select (IntOp.cmpi .ne (mblk m c t (ix2 q k)) 0#32) (wblk m c t (ix2 q k)) 0
      = stretch m c r o (t.val % 8) := by
  unfold stretch
  refine Finset.sum_congr rfl fun k _ => ?_
  have hj : (colN (t.val % 8) k).val = t.val % 8 * 512 + k.val := by
    show (t.val % 8 * 512 + k.val) % 4096 = _
    have := k.isLt
    omega
  rw [xblk_apply m c t p k r _ hr hj, wblk_apply m c t q k o _ ho hj, mblk_apply m c t q k o _ ho hj]

/-- After a first point the accumulator holds stretch 0. -/
theorem at_first (c : Dev nD) (t : Fin cfg0.N) (h0 : t.val % 8 = 0) (h1 : ¬t.val % 8 = 7) (p q : Fin 1024) (r : Fin 8192) (o : Fin 4096)
    (hr : r.val = t.val / 32 * 1024 + p.val) (ho : o.val = t.val / 8 % 4 * 1024 + q.val) :
    (outsAt0 m c t.val t.isLt).2 (ix2 p q) = stretch m c r o 0 := by
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (Entries.step_apply (xblk m c t) (mblk m c t) (wblk m c t) (k0_pay1 (F := Ideal)) p q).trans ?_
  rw [Entries.reset_apply, zero_add]
  exact (step_sum m c t p q r o hr ho).trans (by rw [h0])

/-- After a later point the accumulator holds what the point before left plus the point's stretch. -/
theorem at_next (c : Dev nD) (t : Fin cfg0.N) (h0 : ¬t.val % 8 = 0) (p q : Fin 1024) (r : Fin 8192) (o : Fin 4096)
    (hr : r.val = t.val / 32 * 1024 + p.val) (ho : o.val = t.val / 8 % 4 * 1024 + q.val) :
    (outsAt0 m c t.val t.isLt).2 (ix2 p q) = (outsAt0 m c (t.val - 1) (Nat.lt_of_le_of_lt (Nat.sub_le _ _) t.isLt)).2 (ix2 p q) + stretch m c r o (t.val % 8) := by
  by_cases h1 : t.val % 8 = 7
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    refine (Entries.step_apply (xblk m c t) (mblk m c t) (wblk m c t) (outsAt0 m c (t.val - 1) (Nat.lt_of_le_of_lt (Nat.sub_le _ _) t.isLt)).2 p q).trans ?_
    rw [step_sum m c t p q r o hr ho]
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    refine (Entries.step_apply (xblk m c t) (mblk m c t) (wblk m c t) (outsAt0 m c (t.val - 1) (Nat.lt_of_le_of_lt (Nat.sub_le _ _) t.isLt)).2 p q).trans ?_
    rw [step_sum m c t p q r o hr ho]

/-- After point `n` the accumulator's entry (p, q) is the sum of stretches 0 … n mod 8 of the point's rows. -/
theorem acc_eq (c : Dev nD) : ∀ (n : ℕ) (h : n < cfg0.N) (p q : Fin 1024) (r : Fin 8192) (o : Fin 4096),
    r.val = n / 32 * 1024 + p.val → o.val = n / 8 % 4 * 1024 + q.val →
    (outsAt0 m c n h).2 (ix2 p q) = ∑ j ∈ Finset.range (n % 8 + 1), stretch m c r o j := by
  intro n
  induction n with
  | zero =>
    intro h p q r o hr ho
    refine (at_first m c ⟨0, h⟩ rfl (by show ¬(0 : ℕ) % 8 = 7; omega) p q r o hr ho).trans ?_
    show _ = ∑ j ∈ Finset.range 1, stretch m c r o j
    rw [Finset.sum_range_one]
  | succ n ih =>
    intro h p q r o hr ho
    have hN : n + 1 < 256 := lt_of_lt_of_eq h N_0
    by_cases h0 : (n + 1) % 8 = 0
    · refine (at_first m c ⟨n + 1, h⟩ h0 (by show ¬(n + 1) % 8 = 7; omega) p q r o hr ho).trans ?_
      rw [h0, Finset.sum_range_one]
    · refine (at_next m c ⟨n + 1, h⟩ h0 p q r o hr ho).trans ?_
      show (outsAt0 m c n _).2 (ix2 p q) + stretch m c r o ((n + 1) % 8) = _
      rw [ih _ p q r o (by omega) (by omega)]
      have e : (n + 1) % 8 = n % 8 + 1 := by omega
      rw [e, Finset.sum_range_succ (fun j => stretch m c r o j) (n % 8 + 1)]

/-- The eighth point of a group writes the output block: all eight stretches, plus the bias. -/
theorem out_eq (c : Dev nD) (t : Fin cfg0.N) (h1 : t.val % 8 = 7) (p q : Fin 1024) (r : Fin 8192) (o : Fin 4096)
    (hr : r.val = t.val / 32 * 1024 + p.val) (ho : o.val = t.val / 8 % 4 * 1024 + q.val) :
    (outsAt0 m c t.val t.isLt).1 (ix2 p q) = (∑ j ∈ Finset.range 8, stretch m c r o j) + barr m c (ix1 o) := by
  have h0 : ¬t.val % 8 = 0 := by omega
  have hN : t.val < 256 := lt_of_lt_of_eq t.isLt N_0
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  refine (Entries.bias_apply (k0_pay2 (F := Ideal) (xblk m c t) (mblk m c t) (wblk m c t) (outsAt0 m c (t.val - 1) (Nat.lt_of_le_of_lt (Nat.sub_le _ _) t.isLt)).2) (bblk m c t) p q).trans ?_
  rw [bblk_apply m c t q o ho]
  refine congrArg (· + barr m c (ix1 o)) ?_
  refine (Entries.step_apply (xblk m c t) (mblk m c t) (wblk m c t) (outsAt0 m c (t.val - 1) (Nat.lt_of_le_of_lt (Nat.sub_le _ _) t.isLt)).2 p q).trans ?_
  rw [step_sum m c t p q r o hr ho, acc_eq m c (t.val - 1) _ p q r o (by omega) (by omega)]
  rw [h1, show (t.val - 1) % 8 + 1 = 7 by omega]
  exact (Finset.sum_range_succ (fun j => stretch m c r o j) 7).symm

end Cert.KernelIdeal.Accum

end
-- ==== Proof.Final.lean ====
/-
  The kernel's result array, and the program's result after the host's last line.

  The output block of the point (a, b, 7) is written back to rows 1024·a … and columns 1024·b … of the [8192, 4096]
  result; the other points write nothing back. Each entry (r, o) of the result lies in exactly one such block — that of
  a = r / 1024, b = o / 1024 — so the array ends holding, at (r, o), the eight stretches of the thinned product of
  flattened-input row r with weight row o, plus the bias at o. The host then reads the [8192, 4096] array as
  [4, 2048, 4096].
-/
import proofs.«118036_j27479200760108_1_alg».proof.Proof.Accum

noncomputable section

namespace Cert.KernelIdeal.Final

open Cert.KernelIdeal Cert.KernelIdeal.Gen Cert.KernelIdeal.Blocks Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flattened result: at (r, o), all eight stretches plus the bias at o. -/
def out2 (c : Dev nD) : Vec Ideal S8192x4096 .f32 :=
  fun i => (∑ j ∈ Finset.range 8, stretch m c (i 0) (i 1) j) + barr m c (ix1 (i 1))

/-- What a writing point writes back is its block of the flattened result. -/
theorem flushed_eq (c : Dev nD) (t : Fin cfg0.N) (hf : (cfg0.win 4).flush t = true) :
    (dats m 0 c).flushed 4 t = ((cfg0.win 4).blk t).view.read (Elt Ideal) (out2 m c) := by
  have h1 : t.val % 8 = 7 := (flush0_4 t).mp hf
  have hN : t.val < 256 := lt_of_lt_of_eq t.isLt N_0
  show (cfg0.win 4).cut (grid0.coords t) ((dats m 0 c).after 4 t) = _
  rw [after0_4]
  funext y
  obtain ⟨p, q, rfl⟩ : ∃ (p q : Fin 1024), y = ix2 p q := ⟨y 0, y 1, eq_ix2 y⟩
  have hp := p.isLt
  have hq := q.isLt
  obtain ⟨r, hr⟩ : ∃ r : Fin 8192, r.val = t.val / 32 * 1024 + p.val := ⟨⟨t.val / 32 * 1024 + p.val, by omega⟩, rfl⟩
  obtain ⟨o, ho⟩ : ∃ o : Fin 4096, o.val = t.val / 8 % 4 * 1024 + q.val := ⟨⟨t.val / 8 % 4 * 1024 + q.val, by omega⟩, rfl⟩
  refine Eq.trans (out_eq m c t h1 p q r o hr ho) ?_
  exact (read_o (F := Ideal) t (out2 m c) p q r o hr ho).symm

/-- An entry of the result is in point `t`'s block iff each coordinate is in the block's range. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry of the result is written back by the last point of its block's group. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, ht⟩ : ∃ t : Fin cfg0.N, t.val = (i 0).val / 1024 * 32 + (i 1).val / 1024 * 8 + 7 :=
    ⟨⟨(i 0).val / 1024 * 32 + (i 1).val / 1024 * 8 + 7, by rw [show cfg0.N = 256 from N_0]; omega⟩, rfl⟩
  refine ⟨t, (flush0_4 t).mpr (by omega), ?_⟩
  rw [mem_blk]
  obtain ⟨-, -, -, -, -, -, -, e0, e1⟩ := idx_facts t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- So the result array ends holding the flattened result. -/
theorem final (c : Dev nD) : (dats m 0 c).arrAt 4 cfg0.N = out2 m c :=
  (dats m 0 c).arrAt_eq_of_cover 4 (out2 m c) (flushed_eq m c) cover

/-- The program's result: the flattened result read as [4, 2048, 4096]. -/
abbrev result (c : Dev nD) : Buf (Elt Ideal) ((c : Thread nD τ).loc main_v2) :=
  shapeCast S4x2048x4096 (out2 m c) shapeCasts_S8192x4096_S4x2048x4096

/-- The host's last line leaves it in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1) = out2 m c :=
    (Pipeline.withArrays_arr spec0 launch0.win.arr_inj c _ _ 4).trans (final m c)
  exact (show _ = shapeCast S4x2048x4096 (Pipeline.withArrays (cfgs 0).spec c (V0 m c) (fun w => (dats m 0 c).arrAt w (cfgs 0).N) (Proc.devRef .tc main_v1)) shapeCasts_S8192x4096_S4x2048x4096 from rfl).trans
    (congrArg (fun A => shapeCast S4x2048x4096 A shapeCasts_S8192x4096_S4x2048x4096) e)

/-- The run, read: the result buffer at the program's result, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.Whole.lean ====
/-
  The kernel's result is the masked linear layer.

  Entry (b, s, o) of the program's result is entry (2048·b + s, o) of the flattened result: the eight stretches of the
  thinned product of flattened-input row 2048·b + s with weight row o, plus the bias at o. Row 2048·b + s of the
  flattened input is row (b, s) of the input; the mask word at (o, k) is the mask bit at (o, k) widened, and selecting on
  "the word is not zero" keeps the weight entry exactly where the bit is set; the weight and the bias are the
  arguments themselves. The eight stretches of 512 columns are the row of 4096 columns, so the stretches add up to the
  layer's long sum.
-/
import proofs.«118036_j27479200760108_1_alg».proof.Proof.Final

noncomputable section

namespace Cert.KernelIdeal.Whole

open Cert.KernelIdeal Cert.KernelIdeal.Gen Cert.KernelIdeal.Blocks Cert.KernelIdeal.Accum Cert.KernelIdeal.Final
open Idealize.ShloMosaic Idealize.ShloMosaic.TcCoe Idealize.SL.Sem Idealize.ShloMosaic.ValueIdx

variable (m : (ℓ : Loc nD τ sig) → Buf (Elt Ideal) ℓ)

/-- The four arguments, at their literal types. -/
abbrev xin (c : Dev nD) : Vec Ideal S4x2048x4096 .f32 := m ((c : Thread nD τ).loc main_arg0)
abbrev win (c : Dev nD) : Vec Ideal S4096x4096 .f32 := m ((c : Thread nD τ).loc main_arg1)
abbrev bin (c : Dev nD) : Vec Ideal S4096 .f32 := m ((c : Thread nD τ).loc main_arg2)
abbrev kin (c : Dev nD) : Vec Ideal S4096x4096 .i1 := m ((c : Thread nD τ).loc main_arg3)

/-- A stretch of the kernel's rows is the stretch of the layer's long sum. -/
theorem stretch_eq (c : Dev nD) (b : Fin 4) (s : Fin 2048) (o : Fin 4096) (r : Fin 8192) (hr : r.val = b.val * 2048 + s.val) (j : Fin 8) :
    stretch m c r o j.val
      = ∑ k : Fin 512, xin m c (ix3 b s (MaskedLinear.col j k))
          * MaskedLinear.kept (win m c (ix2 o (MaskedLinear.col j k))) (kin m c (ix2 o (MaskedLinear.col j k))) := by
  unfold stretch
  refine Finset.sum_congr rfl fun k _ => ?_
  have hc : colN j.val k = MaskedLinear.col j k := Fin.ext (by
    show (j.val * 512 + k.val) % 4096 = j.val * 512 + k.val
    have := j.isLt; have := k.isLt; omega)
  rw [hc, xarr_eq, marr_eq, warr_eq, flat_apply _ b s _ r hr]
  exact congrArg (xin m c (ix3 b s (MaskedLinear.col j k)) * ·)
    (MaskedLinear.select_word (win m c (ix2 o (MaskedLinear.col j k))) (kin m c (ix2 o (MaskedLinear.col j k))))

/-- The program's result is the layer of the four arguments. -/
theorem result_eq (c : Dev nD) :
    result m c = MaskedLinear.G (xin m c) (win m c) (bin m c) (kin m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  obtain ⟨r, hr⟩ : ∃ r : Fin 8192, r.val = b.val * 2048 + s.val := ⟨⟨b.val * 2048 + s.val, by omega⟩, rfl⟩
  refine (shapeCast_apply (out2 m c) shapeCasts_S8192x4096_S4x2048x4096 (ix3 b s o) (ix2 r o) (by
    rw [Shape.rowMajor_val_three, Shape.rowMajor_val_two]
    show r.val * 4096 + o.val = (b.val * 2048 + s.val) * 4096 + o.val
    rw [hr])).trans ?_
  show (∑ j ∈ Finset.range 8, stretch m c r o j) + barr m c (ix1 o) = MaskedLinear.dot _ _ _ b s o + _
  rw [barr_eq, MaskedLinear.range_sum]
  refine congrArg (· + bin m c (ix1 o)) ?_
  unfold MaskedLinear.dot
  rw [MaskedLinear.row_sum]
  exact Finset.sum_congr rfl fun j _ => stretch_eq m c b s o r hr j

end Cert.KernelIdeal.Whole

end
-- ==== Proof.RefValue.lean ====
/-
  The reference's result is the masked linear layer.

  The host program widens each mask bit to the number 0 or 1, multiplies the weight matrix by it entry by entry,
  contracts the input's last axis with the product's second axis, and adds the bias along the last axis. Read at an
  output index (b, s, o) this is the sum over k of x(b, s, k) · (w(o, k) · bit(o, k)), plus bias(o); and an entry times
  its bit read as a number is the entry where the bit is set and zero where it is clear.
-/
import proofs.«118036_j27479200760108_1_alg».proof.Proof.Gen.ReferenceIdeal.Read
import proofs.«118036_j27479200760108_1_alg».proof.Proof.Spec

noncomputable section

namespace Cert.ReferenceIdeal.RefValue

open Cert.ReferenceIdeal Cert.ReferenceIdeal.Read Idealize.ShloMosaic Idealize.ShloMosaic.ValueIdx

/-- The last stage of the reference, as a function of the four arguments, is the layer. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i1⟩ : BufTy).Contents (Elt Ideal)) :
    val_main_v5 (F := Ideal) x0 x1 x2 x3 = MaskedLinear.G x0 x1 x2 x3 := by
  funext i
  obtain ⟨b, s, o, rfl⟩ : ∃ (b : Fin 4) (s : Fin 2048) (o : Fin 4096), i = ix3 b s o := ⟨i 0, i 1, i 2, eq_ix3 i⟩
  rw [val_main_v5_apply, val_main_v2_apply, val_main_v4_apply, val_main_v3_apply]
  show (∑ k : Fin 4096, _) + _ = MaskedLinear.dot x0 x1 x3 b s o + x2 (ix1 o)
  congr 1
  · unfold MaskedLinear.dot
    refine Finset.sum_congr rfl fun k _ => ?_
    rw [val_main_v1_apply, val_main_v0_apply]
    have el : lidx_main_v2 (ix3 b s o) k = ix3 b s k :=
      funext fun a => match a with | ⟨0, _⟩ => rfl | ⟨1, _⟩ => rfl | ⟨2, _⟩ => rfl
    have er : ridx_main_v2 (ix3 b s o) k = ix2 o k :=
      funext fun a => match a with | ⟨0, _⟩ => rfl | ⟨1, _⟩ => rfl
    rw [el, er]
    exact congrArg (x0 (ix3 b s k) * ·) (MaskedLinear.mul_bit _ _)
  · exact congrArg x2 (funext fun a => match a with | ⟨0, _⟩ => rfl)

end Cert.ReferenceIdeal.RefValue

end
-- ==== Proof.Claims.lean ====
/-
  The five claims.

  Both programs compute the masked linear layer of `Spec.lean`: at (b, s, o), the sum over k of x(b, s, k) times the
  weight entry w(o, k) kept where its mask bit is set, plus bias(o). The kernel reaches it as eight partial row products
  of 512 columns each, accumulated in order from zero into a scratch block, the bias added at the eighth; the reference
  as one contraction over all 4096 columns of the weight matrix multiplied by the mask read as numbers. Over the
  extended reals the two agree entry by entry, with no condition on the inputs: addition is commutative and
  associative, zero is neutral, and one and zero act on every extended real as on a real. So the finiteness of the
  inputs is not used.

  The two kernel frames are the generated ones; the reference's frame is its generated run with the result dropped; the
  idealization rewrote nothing, so there is nothing to preserve.
-/
import proofs.«118036_j27479200760108_1_alg».proof.Defs
import proofs.«118036_j27479200760108_1_alg».proof.Proof.Gen.Kernel.Frame
import proofs.«118036_j27479200760108_1_alg».proof.Proof.Gen.Pre_finite_inputs
import proofs.«118036_j27479200760108_1_alg».proof.Proof.Whole
import proofs.«118036_j27479200760108_1_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end with the layer of those arguments in their
    result buffers. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]
  exact (Cert.KernelIdeal.Whole.result_eq m c).symm

end Cert.Proof.Claims

end
-- ==== Proof.lean ====
/-
  The certificate of a masked linear layer: a tiled kernel that thins the weight tile by a boolean mask, multiplies in
  tiles over an 8 × 4 × 8 grid accumulating along the last axis, and adds the bias at the end, against the plain
  `einsum` of the input with `weight * mask` plus the bias. The mathematics is in `Proof/Spec.lean` (the layer and its
  algebra), `Proof/Entries.lean` (the body's blocks entry by entry), `Proof/Pieces.lean` and `Proof/Accum.lean` (what
  each grid point leaves, by induction along the grid), `Proof/Blocks.lean` (where the blocks sit), `Proof/Final.lean`
  and `Proof/Whole.lean` (the result array is the layer), `Proof/RefValue.lean` (so is the reference's), and
  `Proof/Claims.lean` (the five claims).
-/
import proofs.«118036_j27479200760108_1_alg».proof.Defs
import proofs.«118036_j27479200760108_1_alg».proof.Proof.Gen.Kernel
import proofs.«118036_j27479200760108_1_alg».proof.Proof.Gen.KernelIdeal
import proofs.«118036_j27479200760108_1_alg».proof.Proof.Gen.ReferenceIdeal
import proofs.«118036_j27479200760108_1_alg».proof.Proof.Gen.Pre_finite_inputs
import proofs.«118036_j27479200760108_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
